-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x256 : Shape := ⟨3, ![32, 128, 256]⟩
abbrev S32x256x256 : Shape := ⟨3, ![32, 256, 256]⟩
abbrev S_ : Shape := ⟨0, ![]⟩

class Facts : Prop where
  bcast_S_S32x128x256 : S_.BroadcastsInDim S32x128x256 (![] : Fin 0 → Fin S32x128x256.rank)
  reducesTo_S32x128x256_S_d0_1_2 : S32x128x256.ReducesTo [0, 1, 2] S_
  h_S_ : 0 < S_.numel
  bcast_S_S32x256x256 : S_.BroadcastsInDim S32x256x256 (![] : Fin 0 → Fin S32x256x256.rank)
  reducesTo_S32x256x256_S_d0_1_2 : S32x256x256.ReducesTo [0, 1, 2] S_

variable [Facts]

def fn {F : FTy → Type} [FloatOps F] (main_arg0 : FVec F S32x128x256 .f32) (main_arg1 : FVec F S32x256x256 .f32) : IVec S_ 1 :=
  let main_v0 : FVec F S32x128x256 .f32 := Host.absf main_arg0
  let main_cst : FVec F S_ .f32 := constant S_ .f32 0x7F800000#32
  let main_v1 : FVec F S32x128x256 .f32 := broadcastInDim S32x128x256 ![] bcast_S_S32x128x256 main_cst
  let main_v2 : IVec S32x128x256 1 := cmpf .olt main_v0 main_v1
  let main_c : IVec S_ 1 := constantI S_ 1 1#1
  let main_v3 : IVec S_ 1 := (fun x v => Host.reduce IntOp.andi x v reducesTo_S32x128x256_S_d0_1_2 h_S_) main_v2 main_c
  let main_v4 : FVec F S32x256x256 .f32 := Host.absf main_arg1
  let main_cst_0 : FVec F S_ .f32 := constant S_ .f32 0x7F800000#32
  let main_v5 : FVec F S32x256x256 .f32 := broadcastInDim S32x256x256 ![] bcast_S_S32x256x256 main_cst_0
  let main_v6 : IVec S32x256x256 1 := cmpf .olt main_v4 main_v5
  let main_c_1 : IVec S_ 1 := constantI S_ 1 1#1
  let main_v7 : IVec S_ 1 := (fun x v => Host.reduce IntOp.andi x v reducesTo_S32x256x256_S_d0_1_2 h_S_) main_v6 main_c_1
  let main_v8 : IVec S_ 1 := andi main_v3 main_v7
  main_v8
-- ==== Kernel.lean ====
abbrev S32x128x256 : Shape := ⟨3, ![32, 128, 256]⟩
abbrev S32x256x256 : Shape := ⟨3, ![32, 256, 256]⟩
abbrev S1x128x256 : Shape := ⟨3, ![1, 128, 256]⟩
abbrev S1x256x256 : Shape := ⟨3, ![1, 256, 256]⟩
abbrev S128x256 : Shape := ⟨2, ![128, 256]⟩
abbrev S256x256 : Shape := ⟨2, ![256, 256]⟩
abbrev S256 : Shape := ⟨1, ![256]⟩
abbrev S1x256 : Shape := ⟨2, ![1, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x128x256, .f32⟩
  | .hbm, ⟨1, _⟩ => ⟨S32x256x256, .f32⟩
  | .hbm, ⟨2, _⟩ => ⟨S32x128x256, .f32⟩
  | .hbm, ⟨3, _⟩ => ⟨S32x256x256, .f32⟩
  | .local _ .vmem, ⟨0, _⟩ => ⟨S1x128x256, .f32⟩
  | .local _ .vmem, ⟨1, _⟩ => ⟨S1x128x256, .f32⟩
  | .local _ .vmem, ⟨2, _⟩ => ⟨S1x256x256, .f32⟩
  | .local _ .vmem, ⟨3, _⟩ => ⟨S1x256x256, .f32⟩
  | .local _ .vmem, ⟨4, _⟩ => ⟨S1x128x256, .f32⟩
  | .local _ .vmem, ⟨5, _⟩ => ⟨S1x128x256, .f32⟩
  | .local _ .vmem, ⟨6, _⟩ => ⟨S1x256x256, .f32⟩
  | .local _ .vmem, ⟨7, _⟩ => ⟨S1x256x256, .f32⟩
  | _, _ => ⟨S32x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [0] S256
  shapeCasts_S256_S1x256 : S256.ShapeCasts S1x256
  reduces_S128x256_S256 : S128x256.Reduces [0] S256
  broadcasts_S1x256_S128x256 : S1x256.Broadcasts S128x256
  shapeCasts_S128x256_S1x128x256 : S128x256.ShapeCasts S1x128x256
  broadcasts_S1x256_S256x256 : S1x256.Broadcasts S256x256
  shapeCasts_S256x256_S1x256x256 : S256x256.ShapeCasts S1x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S32x128x256.size a
  hwx0_0 : ∀ i : grid0.Coords, EltTy.bits .f32 = 32 ∨ (Rect.block (s := S32x128x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S32x256x256.size a
  hwx0_1 : ∀ i : grid0.Coords, EltTy.bits .f32 = 32 ∨ (Rect.block (s := S32x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S32x128x256.size a
  hwx0_2 : ∀ i : grid0.Coords, EltTy.bits .f32 = 32 ∨ (Rect.block (s := S32x128x256) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S32x256x256.size a
  hwx0_3 : ∀ i : grid0.Coords, EltTy.bits .f32 = 32 ∨ (Rect.block (s := S32x256x256) S1x256x256.size (cc0_transform_3 i) (hinb0_3 i)).WholeWords (EltTy.packing .f32)

variable [Facts₀]

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x128x256 : Shape := ⟨3, ![32, 128, 256]⟩
abbrev S32x256x256 : Shape := ⟨3, ![32, 256, 256]⟩
abbrev S_ : Shape := ⟨0, ![]⟩
abbrev S32x256 : Shape := ⟨2, ![32, 256]⟩
abbrev S32x1x256 : Shape := ⟨3, ![32, 1, 256]⟩

abbrev nBuf : Space → Nat
  | .hbm => 12
  | .vmem => 0
  | .smem => 0
  | _ => 0

abbrev bufTy : (tb : Table) → Fin (tcTables nBuf tb) → BufTy
  | .hbm, ⟨0, _⟩ => ⟨S32x128x256, .f32⟩
  | .hbm, ⟨1, _⟩ => ⟨S32x256x256, .f32⟩
  | .hbm, ⟨2, _⟩ => ⟨S_, .f32⟩
  | .hbm, ⟨3, _⟩ => ⟨S32x256, .f32⟩
  | .hbm, ⟨4, _⟩ => ⟨S32x1x256, .f32⟩
  | .hbm, ⟨5, _⟩ => ⟨S_, .f32⟩
  | .hbm, ⟨6, _⟩ => ⟨S32x256, .f32⟩
  | .hbm, ⟨7, _⟩ => ⟨S32x1x256, .f32⟩
  | .hbm, ⟨8, _⟩ => ⟨S32x128x256, .f32⟩
  | .hbm, ⟨9, _⟩ => ⟨S32x128x256, .f32⟩
  | .hbm, ⟨10, _⟩ => ⟨S32x256x256, .f32⟩
  | .hbm, ⟨11, _⟩ => ⟨S32x256x256, .f32⟩
  | _, _ => ⟨S32x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  reducesTo_S32x256x256_S32x256_d1 : S32x256x256.ReducesTo [1] S32x256
  h_S_ : 0 < S_.numel
  bcast_S32x256_S32x1x256_0_2 : S32x256.BroadcastsInDim S32x1x256 (![0, 2] : Fin 2 → Fin S32x1x256.rank)
  reducesTo_S32x128x256_S32x256_d1 : S32x128x256.ReducesTo [1] S32x256
  bcast_S32x1x256_S32x128x256_0_1_2 : S32x1x256.BroadcastsInDim S32x128x256 (![0, 1, 2] : Fin 3 → Fin S32x128x256.rank)
  bcast_S32x1x256_S32x256x256_0_1_2 : S32x1x256.BroadcastsInDim S32x256x256 (![0, 1, 2] : Fin 3 → Fin S32x256x256.rank)

variable [Facts₀]

class Facts : Prop extends Facts₀ where

variable [Facts]
-- ==== Proof.BlockValue.lean ====
/-
  What the kernel body leaves in its two output blocks, read at an index, on the extended reals.
  At one grid point the body holds a user block `x0` of shape [1, 128, 256] and an image block `x1` of shape
  [1, 256, 256]. Dropping the unit axis, it sums each block down its rows (a lane sum from the zero word, which on the
  extended reals is the plain sum over the row index), spreads each [256] row of sums over the rows of the other
  block, and multiplies entry by entry. So the first output block at (0, p, q) is x0(0, p, q) · Σ_r x1(0, r, q) and the
  second at (0, p, q) is x1(0, p, q) · Σ_r x0(0, r, q).
-/
import proofs.«143163_j65609920413984_1_alg».proof.Proof.Gen.KernelIdeal.Value
import Idealize.ShloMosaic.PureOps.Ideal.Laws
import Idealize.ShloMosaic.Lib.ValueLayout
import Idealize.ShloMosaic.Lib.ValueIdx

noncomputable section

namespace Cert.Interaction.Block

open Cert.KernelIdeal Cert.KernelIdeal.Gen Idealize.ShloMosaic Idealize.ShloMosaic.ValueIdx

/-- A sum of an [n, 256] array down its rows, started from the zero word, read at column `q`: the sum over the row
    index of the entries of that column. -/
theorem rowsSum_apply {n : ℕ} (X : FVec Ideal ⟨2, ![n, 256]⟩ .f32) (h : Shape.Reduces ⟨2, ![n, 256]⟩ [0] ⟨1, ![256]⟩)
    (hφ : FKind.Formats .f32) (hacc : (0x00000000#32 : BitVec 32) = 0x00000000#32) (q : Fin 256) :
    multiReduction .add [0] ⟨1, ![256]⟩ X 0x00000000#32 h hφ hacc (ix1 q) = ∑ r : Fin n, X (ix2 r q) := by
  refine (Ideal.multiReduction_add_single X 0x00000000#32 h hφ hacc (ix1 q)).trans ?_
  refine Finset.sum_congr rfl fun r _ => congrArg X (funext fun a => Fin.ext ?_)
  match a with
  | ⟨0, _⟩ => rfl
  | ⟨1, _⟩ => rfl

/-- The three zero offsets of a whole-block rectangle. -/
theorem offsets_zero : (![0, 0, 0] : Fin 3 → Nat) = fun _ => 0 := funext fun a => by fin_cases a <;> rfl

/-- The first output block at (u, p, q): the user block's entry there times the image block's column sum. -/
theorem first_apply (x0 : Vec Ideal S1x128x256 .f32) (x1 : Vec Ideal S1x256x256 .f32) (y : S1x128x256.Idx) :
    out0_2 x0 x1 y = x0 (ix3 (0 : Fin 1) (y 1) (y 2)) * ∑ r : Fin 256, x1 (ix3 (0 : Fin 1) r (y 2)) := by
  obtain ⟨u, p, q, rfl⟩ : ∃ (u : Fin 1) (p : Fin 128) (q : Fin 256), y = ix3 u p q := ⟨y 0, y 1, y 2, eq_ix3 y⟩
  unfold out0_2
  rw [View.ld_unit_zero (S := S1x128x256) offsets_zero, View.ld_unit_zero (S := S1x256x256) offsets_zero]
  refine (Value.canon2_eq x0 x1 (ix3 u p q)).trans ?_
  show x0 (Value.ix2_0 (ix3 u p q)) * (multiReduction (F := Ideal) .add [0] S256 (shapeCast S256x256 x1 shapeCasts_S1x256x256_S256x256)
      0x00000000#32 reduces_S256x256_S256 (.inl rfl) rfl) (Value.ix2_1 (ix3 u p q)) = _
  have e0 : Value.ix2_0 (ix3 u p q) = ix3 (0 : Fin 1) p q := funext fun a => Fin.ext (by
    match a with
    | ⟨0, _⟩ => rfl
    | ⟨1, _⟩ => rfl
    | ⟨2, _⟩ => rfl)
  have e1 : Value.ix2_1 (ix3 u p q) = ix1 q := funext fun a => Fin.ext (by
    match a with
    | ⟨0, _⟩ => rfl)
  rw [e0, e1]
  refine congrArg (x0 (ix3 (0 : Fin 1) p q) * ·) ?_
  refine (rowsSum_apply (shapeCast S256x256 x1 shapeCasts_S1x256x256_S256x256) reduces_S256x256_S256 (.inl rfl) rfl q).trans ?_
  exact Finset.sum_congr rfl fun r _ => shapeCast_1ab_ab_apply x1 shapeCasts_S1x256x256_S256x256 r q

/-- The second output block at (u, p, q): the image block's entry there times the user block's column sum. -/
theorem second_apply (x0 : Vec Ideal S1x128x256 .f32) (x1 : Vec Ideal S1x256x256 .f32) (y : S1x256x256.Idx) :
    out0_3 x0 x1 y = x1 (ix3 (0 : Fin 1) (y 1) (y 2)) * ∑ r : Fin 128, x0 (ix3 (0 : Fin 1) r (y 2)) := by
  obtain ⟨u, p, q, rfl⟩ : ∃ (u : Fin 1) (p : Fin 256) (q : Fin 256), y = ix3 u p q := ⟨y 0, y 1, y 2, eq_ix3 y⟩
  unfold out0_3
  rw [View.ld_unit_zero (S := S1x128x256) offsets_zero, View.ld_unit_zero (S := S1x256x256) offsets_zero]
  refine (Value.canon3_eq x1 x0 (ix3 u p q)).trans ?_
  show x1 (Value.ix3_0 (ix3 u p q)) * (multiReduction (F := Ideal) .add [0] S256 (shapeCast S128x256 x0 shapeCasts_S1x128x256_S128x256)
      0x00000000#32 reduces_S128x256_S256 (.inl rfl) rfl) (Value.ix3_1 (ix3 u p q)) = _
  have e0 : Value.ix3_0 (ix3 u p q) = ix3 (0 : Fin 1) p q := funext fun a => Fin.ext (by
    match a with
    | ⟨0, _⟩ => rfl
    | ⟨1, _⟩ => rfl
    | ⟨2, _⟩ => rfl)
  have e1 : Value.ix3_1 (ix3 u p q) = ix1 q := funext fun a => Fin.ext (by
    match a with
    | ⟨0, _⟩ => rfl)
  rw [e0, e1]
  refine congrArg (x1 (ix3 (0 : Fin 1) p q) * ·) ?_
  refine (rowsSum_apply (shapeCast S128x256 x0 shapeCasts_S1x128x256_S128x256) reduces_S128x256_S256 (.inl rfl) rfl q).trans ?_
  exact Finset.sum_congr rfl fun r _ => shapeCast_1ab_ab_apply x0 shapeCasts_S1x128x256_S128x256 r q

end Cert.Interaction.Block

end
-- ==== Proof.Spec.lean ====
/-
  What both programs compute, as two functions of the argument arrays over the extended reals.
  For a user array `u` of shape [32, 128, 256] and an image array `g` of shape [32, 256, 256]
  (a batch axis, a row axis, a column axis):
    the first result at (b, p, q) is   u(b, p, q) · Σ_r g(b, r, q),   r over the 256 image rows of batch b;
    the second result at (b, p, q) is  g(b, p, q) · Σ_r u(b, r, q),   r over the 128 user rows of batch b.
  Each entry is scaled by the OTHER array's column sum within the same batch. The sums are finite sums on the
  extended reals, where addition is commutative and associative without any finiteness assumption, so the order
  in which a program adds the rows does not matter.
-/
import Idealize.ShloMosaic.PureOps.Ideal
import Idealize.ShloMosaic.Lib.ValueIdx

noncomputable section

namespace Cert.Interaction

open Idealize.ShloMosaic Idealize.ShloMosaic.ValueIdx

/-- The user array's shape: batch, user row, column. -/
abbrev UserSh : Shape := ⟨3, ![32, 128, 256]⟩
/-- The image array's shape: batch, image row, column. -/
abbrev ImageSh : Shape := ⟨3, ![32, 256, 256]⟩

/-- The sum down column `q` of batch `b`'s image rows. -/
def imageColSum (g : FVec Ideal ImageSh .f32) (b : Fin 32) (q : Fin 256) : EReal :=
  ∑ r : Fin 256, g (ix3 b r q)

/-- The sum down column `q` of batch `b`'s user rows. -/
def userColSum (u : FVec Ideal UserSh .f32) (b : Fin 32) (q : Fin 256) : EReal :=
  ∑ r : Fin 128, u (ix3 b r q)

/-- The first result: each user entry times its batch's image column sum. -/
def userScaled (u : FVec Ideal UserSh .f32) (g : FVec Ideal ImageSh .f32) : FVec Ideal UserSh .f32 :=
  fun i => u i * imageColSum g (i 0) (i 2)

/-- The second result: each image entry times its batch's user column sum. -/
def imageScaled (u : FVec Ideal UserSh .f32) (g : FVec Ideal ImageSh .f32) : FVec Ideal ImageSh .f32 :=
  fun i => g i * userColSum u (i 0) (i 2)

/-- The first result at an index written by its coordinates. -/
theorem userScaled_ix3 (u : FVec Ideal UserSh .f32) (g : FVec Ideal ImageSh .f32) (b : Fin 32) (p : Fin 128) (q : Fin 256) :
    userScaled u g (ix3 b p q) = u (ix3 b p q) * ∑ r : Fin 256, g (ix3 b r q) := rfl

/-- The second result at an index written by its coordinates. -/
theorem imageScaled_ix3 (u : FVec Ideal UserSh .f32) (g : FVec Ideal ImageSh .f32) (b : Fin 32) (p : Fin 256) (q : Fin 256) :
    imageScaled u g (ix3 b p q) = g (ix3 b p q) * ∑ r : Fin 128, u (ix3 b r q) := rfl

end Cert.Interaction

end
-- ==== Proof.ArrayValue.lean ====
/-
  From blocks to arrays: after the kernel's run each output array is the specification's function of the argument
  arrays.
  The grid has 32 points, one per batch. At point `t` every window's block is the whole slice of batch `t`: block index
  (t, 0, 0) with block extents [1, 128, 256] for the user-shaped arrays and [1, 256, 256] for the image-shaped ones, so
  the block's coordinate (u, p, q) is the array's (t + u, p, q) with u = 0. Hence the block column sums the body forms are
  the column sums over ALL rows of batch `t`, and what point `t` writes back is block `t` of the specification's function.
  Every array index (b, p, q) lies in the block of the point whose block index is (b, 0, 0), so the blocks cover the array.
-/
import proofs.«143163_j65609920413984_1_alg».proof.Proof.BlockValue
import proofs.«143163_j65609920413984_1_alg».proof.Proof.Spec

noncomputable section

namespace Cert.Interaction.Kernel

open Cert.KernelIdeal Cert.KernelIdeal.Gen Idealize.ShloMosaic Idealize.ShloMosaic.TcCoe Idealize.SL.Sem
open Idealize.ShloMosaic.ValueIdx Cert.Interaction
open Idealize.ShloMosaic.Pipeline (Dat)

variable (m : (ℓ : Loc nD τ sig) → Buf (Elt Ideal) ℓ) (ρ : Dev nD → PrngReg)

/-- The printed index maps, decided over the 32 grid points: the two input windows sit on the same batch as each output
    window, and every window's row and column block indices are zero. -/
theorem index_facts : ∀ t : Fin cfg0.N,
    win0_0.index t (0 : Fin 3) = win0_2.index t (0 : Fin 3) ∧ win0_1.index t (0 : Fin 3) = win0_2.index t (0 : Fin 3)
    ∧ win0_3.index t (0 : Fin 3) = win0_2.index t (0 : Fin 3)
    ∧ win0_0.index t (1 : Fin 3) = 0 ∧ win0_0.index t (2 : Fin 3) = 0
    ∧ win0_1.index t (1 : Fin 3) = 0 ∧ win0_1.index t (2 : Fin 3) = 0
    ∧ win0_2.index t (1 : Fin 3) = 0 ∧ win0_2.index t (2 : Fin 3) = 0
    ∧ win0_3.index t (1 : Fin 3) = 0 ∧ win0_3.index t (2 : Fin 3) = 0
    ∧ win0_2.index t (0 : Fin 3) ≤ 31 :=
  (by decide +kernel : ∀ t : Fin grid0.N, _)

/-- Every batch is some point's, for the first output window; -/
theorem first_onto : ∀ b : Fin 32, ∃ t : Fin cfg0.N, win0_2.index t = ![b.val, 0, 0] :=
  (by decide +kernel : ∀ b : Fin 32, ∃ t : Fin grid0.N, win0_2.index t = ![b.val, 0, 0])

/-- and for the second. -/
theorem second_onto : ∀ b : Fin 32, ∃ t : Fin cfg0.N, win0_3.index t = ![b.val, 0, 0] :=
  (by decide +kernel : ∀ b : Fin 32, ∃ t : Fin grid0.N, win0_3.index t = ![b.val, 0, 0])

/-! ## A block entry meets the array's entry

Stated over arrays and blocks as variables: if the block's entry is the array's entry at `i`, and the block's column is,
row by row, the array's column of `i`'s batch, then the block's product of entry and column sum is the specification's
value at `i`. -/

theorem first_join (A0 : FVec Ideal UserSh .f32) (A1 : FVec Ideal ImageSh .f32)
    (B0 : FVec Ideal S1x128x256 .f32) (B1 : FVec Ideal S1x256x256 .f32) (i : UserSh.Idx) (y : S1x128x256.Idx)
    (h0 : B0 (ix3 (0 : Fin 1) (y 1) (y 2)) = A0 i)
    (h1 : ∀ r : Fin 256, B1 (ix3 (0 : Fin 1) r (y 2)) = A1 (ix3 (i 0) r (i 2))) :
    B0 (ix3 (0 : Fin 1) (y 1) (y 2)) * ∑ r : Fin 256, B1 (ix3 (0 : Fin 1) r (y 2)) = userScaled A0 A1 i := by
  unfold userScaled imageColSum
  rw [h0]
  exact congrArg (A0 i * ·) (Finset.sum_congr rfl fun r _ => h1 r)

theorem second_join (A0 : FVec Ideal UserSh .f32) (A1 : FVec Ideal ImageSh .f32)
    (B0 : FVec Ideal S1x128x256 .f32) (B1 : FVec Ideal S1x256x256 .f32) (i : ImageSh.Idx) (y : S1x256x256.Idx)
    (h0 : B1 (ix3 (0 : Fin 1) (y 1) (y 2)) = A1 i)
    (h1 : ∀ r : Fin 128, B0 (ix3 (0 : Fin 1) r (y 2)) = A0 (ix3 (i 0) r (i 2))) :
    B1 (ix3 (0 : Fin 1) (y 1) (y 2)) * ∑ r : Fin 128, B0 (ix3 (0 : Fin 1) r (y 2)) = imageScaled A0 A1 i := by
  unfold imageScaled userColSum
  rw [h0]
  exact congrArg (A1 i * ·) (Finset.sum_congr rfl fun r _ => h1 r)

/-! ## The first output array -/

/-- What point `t` writes back to the first output array is block `t` of each user entry times its batch's image column
    sum, of the argument arrays as the region finds them. -/
theorem first_flushed (c : Dev nD) (t : Fin cfg0.N) :
    (dats m 0 c).flushed 2 t
      = ((cfg0.win 2).blk t).view.read (Elt Ideal) (userScaled (V m c main_arg0) (V m c main_arg1)) := by
  rw [Value.flushed2]
  obtain ⟨e0, e1, e3, a1, a2, b1, b2, c1, c2, d1, d2, hle⟩ := index_facts t
  funext j
  have hj0 : (j 0).val < 1 := (j 0).isLt
  have hj1 : (j 1).val < 128 := (j 1).isLt
  have hj2 : (j 2).val < 256 := (j 2).isLt
  show out0_2 (iblk m c 0 t) (iblk m c 1 t) j = userScaled (V m c main_arg0) (V m c main_arg1) (((cfg0.win 2).blk t).view.emb j)
  refine (Block.first_apply (iblk m c 0 t) (iblk m c 1 t) j).trans
    (first_join (V m c main_arg0) (V m c main_arg1) (iblk m c 0 t) (iblk m c 1 t) (((cfg0.win 2).blk t).view.emb j) j ?_ ?_)
  · show V m c main_arg0 (((cfg0.win 0).blk t).view.emb (ix3 (0 : Fin 1) (j 1) (j 2))) = _
    refine congrArg _ ?_
    funext a; apply Fin.ext
    match a with
    | ⟨0, _⟩ => show win0_0.index t (0 : Fin 3) * 1 + 1 * 0 = win0_2.index t (0 : Fin 3) * 1 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 256 + 1 * (j 2).val = win0_2.index t (2 : Fin 3) * 256 + 1 * (j 2).val; omega
  · intro r
    show V m c main_arg1 (((cfg0.win 1).blk t).view.emb (ix3 (0 : Fin 1) r (j 2))) = _
    refine congrArg _ ?_
    funext a; apply Fin.ext
    match a with
    | ⟨0, _⟩ => show win0_1.index t (0 : Fin 3) * 1 + 1 * 0 = win0_2.index t (0 : Fin 3) * 1 + 1 * (j 0).val; omega
    | ⟨1, _⟩ => show win0_1.index t (1 : Fin 3) * 256 + 1 * r.val = r.val; omega
    | ⟨2, _⟩ => show win0_1.index t (2 : Fin 3) * 256 + 1 * (j 2).val = win0_2.index t (2 : Fin 3) * 256 + 1 * (j 2).val; omega

/-- An index of the first output array is in point `t`'s block iff each coordinate is in the block's range on its axis. -/
theorem first_mem_blk (t : Fin cfg0.N) (i : S32x128x256.Idx) :
    i ∈ ((cfg0.win 2).blk t).view.set ↔ ∀ a : Fin 3, win0_2.index t a * S1x128x256.size a ≤ (i a).val
      ∧ (i a).val < win0_2.index t a * S1x128x256.size a + S1x128x256.size a := by
  show i ∈ ((View.whole main_v0_0).slice (win0_2.rect t)).set ↔ _
  rw [View.set_slice_whole, Rect.mem_set_unit]
  exact Iff.rfl

/-- Every index of the first output array is in the block of its batch's point. -/
theorem first_cover (i : S32x128x256.Idx) :
    ∃ t : Fin cfg0.N, (cfg0.win 2).flush t = true ∧ i ∈ ((cfg0.win 2).blk t).view.set := by
  have hi0 : (i 0).val < 32 := (i 0).isLt
  have hi1 : (i 1).val < 128 := (i 1).isLt
  have hi2 : (i 2).val < 256 := (i 2).isLt
  obtain ⟨t, ht⟩ := first_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [first_mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 256 ≤ (i 2).val ∧ (i 2).val < win0_2.index t (2 : Fin 3) * 256 + 256; omega

/-- The first output array after the run. -/
theorem first_final (c : Dev nD) :
    (dats m 0 c).arrAt 2 cfg0.N = userScaled (V m c main_arg0) (V m c main_arg1) :=
  (dats m 0 c).arrAt_eq_of_cover 2 (userScaled (V m c main_arg0) (V m c main_arg1)) (fun t _ => first_flushed m c t) first_cover

/-! ## The second output array -/

/-- What point `t` writes back to the second output array is block `t` of each image entry times its batch's user column
    sum, of the argument arrays as the region finds them. -/
theorem second_flushed (c : Dev nD) (t : Fin cfg0.N) :
    (dats m 0 c).flushed 3 t
      = ((cfg0.win 3).blk t).view.read (Elt Ideal) (imageScaled (V m c main_arg0) (V m c main_arg1)) := by
  rw [Value.flushed3]
  obtain ⟨e0, e1, e3, a1, a2, b1, b2, c1, c2, d1, d2, hle⟩ := index_facts t
  funext j
  have hj0 : (j 0).val < 1 := (j 0).isLt
  have hj1 : (j 1).val < 256 := (j 1).isLt
  have hj2 : (j 2).val < 256 := (j 2).isLt
  show out0_3 (iblk m c 0 t) (iblk m c 1 t) j = imageScaled (V m c main_arg0) (V m c main_arg1) (((cfg0.win 3).blk t).view.emb j)
  refine (Block.second_apply (iblk m c 0 t) (iblk m c 1 t) j).trans
    (second_join (V m c main_arg0) (V m c main_arg1) (iblk m c 0 t) (iblk m c 1 t) (((cfg0.win 3).blk t).view.emb j) j ?_ ?_)
  · show V m c main_arg1 (((cfg0.win 1).blk t).view.emb (ix3 (0 : Fin 1) (j 1) (j 2))) = _
    refine congrArg _ ?_
    funext a; apply Fin.ext
    match a with
    | ⟨0, _⟩ => show win0_1.index t (0 : Fin 3) * 1 + 1 * 0 = win0_3.index t (0 : Fin 3) * 1 + 1 * (j 0).val; omega
    | ⟨1, _⟩ => show win0_1.index t (1 : Fin 3) * 256 + 1 * (j 1).val = win0_3.index t (1 : Fin 3) * 256 + 1 * (j 1).val; omega
    | ⟨2, _⟩ => show win0_1.index t (2 : Fin 3) * 256 + 1 * (j 2).val = win0_3.index t (2 : Fin 3) * 256 + 1 * (j 2).val; omega
  · intro r
    show V m c main_arg0 (((cfg0.win 0).blk t).view.emb (ix3 (0 : Fin 1) r (j 2))) = _
    refine congrArg _ ?_
    funext a; apply Fin.ext
    match a with
    | ⟨0, _⟩ => show win0_0.index t (0 : Fin 3) * 1 + 1 * 0 = win0_3.index t (0 : Fin 3) * 1 + 1 * (j 0).val; omega
    | ⟨1, _⟩ => show win0_0.index t (1 : Fin 3) * 128 + 1 * r.val = r.val; omega
    | ⟨2, _⟩ => show win0_0.index t (2 : Fin 3) * 256 + 1 * (j 2).val = win0_3.index t (2 : Fin 3) * 256 + 1 * (j 2).val; omega

/-- An index of the second output array is in point `t`'s block iff each coordinate is in the block's range on its axis. -/
theorem second_mem_blk (t : Fin cfg0.N) (i : S32x256x256.Idx) :
    i ∈ ((cfg0.win 3).blk t).view.set ↔ ∀ a : Fin 3, win0_3.index t a * S1x256x256.size a ≤ (i a).val
      ∧ (i a).val < win0_3.index t a * S1x256x256.size a + S1x256x256.size a := by
  show i ∈ ((View.whole main_v0_1).slice (win0_3.rect t)).set ↔ _
  rw [View.set_slice_whole, Rect.mem_set_unit]
  exact Iff.rfl

/-- Every index of the second output array is in the block of its batch's point. -/
theorem second_cover (i : S32x256x256.Idx) :
    ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 256 := (i 2).isLt
  obtain ⟨t, ht⟩ := second_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [second_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The second output array after the run. -/
theorem second_final (c : Dev nD) :
    (dats m 0 c).arrAt 3 cfg0.N = imageScaled (V m c main_arg0) (V m c main_arg1) :=
  (dats m 0 c).arrAt_eq_of_cover 3 (imageScaled (V m c main_arg0) (V m c main_arg1)) (fun t _ => second_flushed m c t) second_cover

/-! ## The run -/

/-- Every weakly fair execution of the idealized kernel terminates with the two result arrays at the specification's two
    functions of the argument arrays, and the argument arrays unchanged. -/
theorem run : θ_run defs (onTc (τ := τ) (main (F := Ideal))) ⟨m, fun _ => 0, ρ⟩ fun r => ∀ c : Dev nD,
      r.2.mem ((c : Thread nD τ).loc main_v0_0) = userScaled (m ((c : Thread nD τ).loc main_arg0)) (m ((c : Thread nD τ).loc main_arg1))
      ∧ r.2.mem ((c : Thread nD τ).loc main_v0_1) = imageScaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (first_final m c), (h c).2.1.trans (second_final m c), (h c).2.2.1, (h c).2.2.2⟩)
    (Value.run_blocks m ρ)

end Cert.Interaction.Kernel

end
-- ==== Proof.RefSide.lean ====
/-
  The reference computes the two functions of the specification.
  Read one operation at a time, its first result at an index `i = (b, p, q)` is the user entry at `i` times a value
  that two broadcasts carry from the [32, 256] array of sums: the sum, from the zero word, of the image array over its
  row axis at (b, q). The zero word is the real number 0, so that value is the image column sum of batch `b` at
  column `q`. The second result is the same with the two arrays exchanged.
-/
import proofs.«143163_j65609920413984_1_alg».proof.Proof.Gen.ReferenceIdeal.Read
import proofs.«143163_j65609920413984_1_alg».proof.Proof.Spec
import Idealize.ShloMosaic.PureOps.Ideal.Laws

noncomputable section

namespace Cert.Interaction.Reference

open Cert.ReferenceIdeal Cert.ReferenceIdeal.Read Idealize.ShloMosaic Idealize.ShloMosaic.ValueIdx Cert.Interaction

/-- The reference's first result is each user entry times its batch's image column sum. -/
theorem first_eq (x0 : (⟨S32x128x256, .f32⟩ : BufTy).Contents (Elt Ideal)) (x1 : (⟨S32x256x256, .f32⟩ : BufTy).Contents (Elt Ideal)) :
    val_main_v5 (F := Ideal) x0 x1 = userScaled x0 x1 := by
  funext i
  rw [val_main_v5_apply, val_main_v4_apply, val_main_v1_apply, val_main_v0_apply, val_main_cst_apply]
  simp only [Ideal.mulf_def, Ideal.ofBits_def, Ideal.ofBits_zero_f32, zero_add]
  unfold userScaled imageColSum
  refine congrArg (x0 i * ·) (Finset.sum_congr rfl fun r _ => congrArg x1 (funext fun a => Fin.ext ?_))
  match a with
  | ⟨0, _⟩ => rfl
  | ⟨1, _⟩ => rfl
  | ⟨2, _⟩ => rfl

/-- The reference's second result is each image entry times its batch's user column sum. -/
theorem second_eq (x0 : (⟨S32x128x256, .f32⟩ : BufTy).Contents (Elt Ideal)) (x1 : (⟨S32x256x256, .f32⟩ : BufTy).Contents (Elt Ideal)) :
    val_main_v7 (F := Ideal) x0 x1 = imageScaled x0 x1 := by
  funext i
  rw [val_main_v7_apply, val_main_v6_apply, val_main_v3_apply, val_main_v2_apply, val_main_cst_0_apply]
  simp only [Ideal.mulf_def, Ideal.ofBits_def, Ideal.ofBits_zero_f32, zero_add]
  unfold imageScaled userColSum
  refine congrArg (x1 i * ·) (Finset.sum_congr rfl fun r _ => congrArg x0 (funext fun a => Fin.ext ?_))
  match a with
  | ⟨0, _⟩ => rfl
  | ⟨1, _⟩ => rfl
  | ⟨2, _⟩ => rfl

end Cert.Interaction.Reference

end
-- ==== Proof.lean ====
/-
  The kernel and its reference compute, on the extended reals, the same two arrays from a user array `u` of shape
  [32, 128, 256] and an image array `g` of shape [32, 256, 256]:
      first(b, p, q)  = u(b, p, q) · Σ_r g(b, r, q)      second(b, p, q) = g(b, p, q) · Σ_r u(b, r, q),
  each entry scaled by the other array's column sum within its batch.
  The kernel walks the 32 batches; at batch `b` it holds the whole [128, 256] user slice and the whole [256, 256] image
  slice, sums each down its rows, and multiplies each slice by the other's row of sums. The reference sums each whole
  array over its row axis, spreads the [32, 256] sums back over the rows, and multiplies. Both start each sum from the
  zero word, the real number 0. Since a kernel block spans every row of its batch, the block's column sum is the array's
  column sum for that batch, and the two programs' results are the same function of the arguments index by index. Only
  the commutative, associative addition of the extended reals is used, so the finiteness of the inputs is never opened.
  The rewriting pass changed nothing in the kernel, so its idealization claim is the trivial one.
-/
import proofs.«143163_j65609920413984_1_alg».proof.Defs
import proofs.«143163_j65609920413984_1_alg».proof.Proof.Gen.Kernel
import proofs.«143163_j65609920413984_1_alg».proof.Proof.Gen.Kernel.Skeleton
import proofs.«143163_j65609920413984_1_alg».proof.Proof.Gen.Kernel.Launch
import proofs.«143163_j65609920413984_1_alg».proof.Proof.Gen.Kernel.Points
import proofs.«143163_j65609920413984_1_alg».proof.Proof.Gen.Kernel.Frame
import proofs.«143163_j65609920413984_1_alg».proof.Proof.Gen.KernelIdeal
import proofs.«143163_j65609920413984_1_alg».proof.Proof.Gen.KernelIdeal.Skeleton
import proofs.«143163_j65609920413984_1_alg».proof.Proof.Gen.KernelIdeal.Launch
import proofs.«143163_j65609920413984_1_alg».proof.Proof.Gen.KernelIdeal.Points
import proofs.«143163_j65609920413984_1_alg».proof.Proof.Gen.KernelIdeal.Frame
import proofs.«143163_j65609920413984_1_alg».proof.Proof.Gen.ReferenceIdeal
import proofs.«143163_j65609920413984_1_alg».proof.Proof.Gen.Pre_finite_inputs
import proofs.«143163_j65609920413984_1_alg».proof.Proof.Gen.KernelIdeal.Value
import proofs.«143163_j65609920413984_1_alg».proof.Proof.Gen.ReferenceIdeal.Run
import proofs.«143163_j65609920413984_1_alg».proof.Proof.Gen.ReferenceIdeal.Read
import proofs.«143163_j65609920413984_1_alg».proof.Proof.ArrayValue
import proofs.«143163_j65609920413984_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the two arguments, the idealized kernel ends with its result arrays at the two functions
    of the specification, and so does the reference: its two last stages are those functions, of the same arguments. -/
theorem algebraic : Cert.algebraic_KernelIdeal_ReferenceIdeal := by
  intro m ρ m' ρ' _ hagree
  refine ⟨_, _, Cert.Interaction.Kernel.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · rw [Cert.ReferenceIdeal.Read.val_main_v5_eq, Cert.Interaction.Reference.first_eq, (hagree c).1, (hagree c).2]
  · rw [Cert.ReferenceIdeal.Read.val_main_v7_eq, Cert.Interaction.Reference.second_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
